-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S262144x64 : Shape := ⟨2, ![262144, 64]⟩
abbrev S2x16777216 : Shape := ⟨2, ![2, 16777216]⟩
abbrev S524288 : Shape := ⟨1, ![524288]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel
  bcast_S_S262144x64 : S_.BroadcastsInDim S262144x64 (![] : Fin 0 → Fin S262144x64.rank)
  reducesTo_S262144x64_S_d0_1 : S262144x64.ReducesTo [0, 1] S_
  bcast_S_S524288 : S_.BroadcastsInDim S524288 (![] : Fin 0 → Fin S524288.rank)
  reducesTo_S524288_S_d0 : S524288.ReducesTo [0] S_
  bcast_S_S2x16777216 : S_.BroadcastsInDim S2x16777216 (![] : Fin 0 → Fin S2x16777216.rank)
  reducesTo_S2x16777216_S_d0_1 : S2x16777216.ReducesTo [0, 1] S_

variable [Facts]

def fn_part1 {F : FTy → Type} [FloatOps F] (main_arg2 : IVec S2x16777216 32) (main_v13 : IVec S_ 1) (main_v16 : IVec S524288 1) : IVec S_ 1 :=
  let main_c_5 : IVec S_ 1 := constantI S_ 1 1#1
  let main_v17 : IVec S_ 1 := (fun x v => Host.reduce IntOp.andi x v reducesTo_S524288_S_d0 h_S_) main_v16 main_c_5
  let main_v18 : IVec S_ 1 := andi main_v13 main_v17
  let main_c_6 : IVec S_ 32 := constantI S_ 32 0#32
  let main_v19 : IVec S2x16777216 32 := broadcastInDim S2x16777216 ![] bcast_S_S2x16777216 main_c_6
  let main_v20 : IVec S2x16777216 1 := cmpi .sge main_arg2 main_v19
  let main_c_7 : IVec S_ 1 := constantI S_ 1 1#1
  let main_v21 : IVec S_ 1 := (fun x v => Host.reduce IntOp.andi x v reducesTo_S2x16777216_S_d0_1 h_S_) main_v20 main_c_7
  let main_v22 : IVec S_ 1 := andi main_v18 main_v21
  let main_c_8 : IVec S_ 32 := constantI S_ 32 524288#32
  let main_v23 : IVec S2x16777216 32 := broadcastInDim S2x16777216 ![] bcast_S_S2x16777216 main_c_8
  let main_v24 : IVec S2x16777216 1 := cmpi .slt main_arg2 main_v23
  let main_c_9 : IVec S_ 1 := constantI S_ 1 1#1
  let main_v25 : IVec S_ 1 := (fun x v => Host.reduce IntOp.andi x v reducesTo_S2x16777216_S_d0_1 h_S_) main_v24 main_c_9
  let main_v26 : IVec S_ 1 := andi main_v22 main_v25
  main_v26

def fn {F : FTy → Type} [FloatOps F] (main_arg0 : FVec F S262144 .f32) (main_arg1 : FVec F S262144x64 .f32) (main_arg2 : IVec S2x16777216 32) (main_arg3 : FVec F S524288 .f32) (main_arg4 : FVec F S524288 .f32) : IVec S_ 1 :=
  let main_v0 : FVec F S262144 .f32 := Host.absf main_arg0
  let main_cst : FVec F S_ .f32 := constant S_ .f32 0x7F800000#32
  let main_v1 : FVec F S262144 .f32 := broadcastInDim S262144 ![] bcast_S_S262144 main_cst
  let main_v2 : IVec S262144 1 := cmpf .olt main_v0 main_v1
  let main_c : IVec S_ 1 := constantI S_ 1 1#1
  let main_v3 : IVec S_ 1 := (fun x v => Host.reduce IntOp.andi x v reducesTo_S262144_S_d0 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S524288 .f32 := Host.absf main_arg3
  let main_cst_2 : FVec F S_ .f32 := constant S_ .f32 0x7F800000#32
  let main_v10 : FVec F S524288 .f32 := broadcastInDim S524288 ![] bcast_S_S524288 main_cst_2
  let main_v11 : IVec S524288 1 := cmpf .olt main_v9 main_v10
  let main_c_3 : IVec S_ 1 := constantI S_ 1 1#1
  let main_v12 : IVec S_ 1 := (fun x v => Host.reduce IntOp.andi x v reducesTo_S524288_S_d0 h_S_) main_v11 main_c_3
  let main_v13 : IVec S_ 1 := andi main_v8 main_v12
  let main_v14 : FVec F S524288 .f32 := Host.absf main_arg4
  let main_cst_4 : FVec F S_ .f32 := constant S_ .f32 0x7F800000#32
  let main_v15 : FVec F S524288 .f32 := broadcastInDim S524288 ![] bcast_S_S524288 main_cst_4
  let main_v16 : IVec S524288 1 := cmpf .olt main_v14 main_v15
  fn_part1 (F := F) main_arg2 main_v13 main_v16
-- ==== Kernel.lean ====
abbrev S262144 : Shape := ⟨1, ![262144]⟩
abbrev S262144x64 : Shape := ⟨2, ![262144, 64]⟩
abbrev S2x16777216 : Shape := ⟨2, ![2, 16777216]⟩
abbrev S524288 : Shape := ⟨1, ![524288]⟩
abbrev S1x16777216 : Shape := ⟨2, ![1, 16777216]⟩
abbrev S16777216 : Shape := ⟨1, ![16777216]⟩
abbrev S_ : Shape := ⟨0, ![]⟩
abbrev S2048x128 : Shape := ⟨2, ![2048, 128]⟩
abbrev S256x128 : Shape := ⟨2, ![256, 128]⟩
abbrev S16777216x1 : Shape := ⟨2, ![16777216, 1]⟩
abbrev S1 : Shape := ⟨1, ![1]⟩
abbrev S1x1 : Shape := ⟨2, ![1, 1]⟩
abbrev S262144x1 : Shape := ⟨2, ![262144, 1]⟩

abbrev nBuf : Space → Nat
  | .hbm => 83
  | .vmem => 4
  | .smem => 0
  | _ => 0

abbrev bufTy : (tb : Table) → Fin (tcTables nBuf tb) → BufTy
  | .hbm, ⟨0, _⟩ => ⟨S262144, .f32⟩
  | .hbm, ⟨1, _⟩ => ⟨S262144x64, .f32⟩
  | .hbm, ⟨2, _⟩ => ⟨S2x16777216, .i32⟩
  | .hbm, ⟨3, _⟩ => ⟨S524288, .f32⟩
  | .hbm, ⟨4, _⟩ => ⟨S524288, .f32⟩
  | .hbm, ⟨5, _⟩ => ⟨S1x16777216, .i32⟩
  | .hbm, ⟨6, _⟩ => ⟨S16777216, .i32⟩
  | .hbm, ⟨7, _⟩ => ⟨S1x16777216, .i32⟩
  | .hbm, ⟨8, _⟩ => ⟨S16777216, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S16777216, .i32⟩
  | .hbm, ⟨13, _⟩ => ⟨S16777216, .i32⟩
  | .hbm, ⟨14, _⟩ => ⟨S_, .i32⟩
  | .hbm, ⟨15, _⟩ => ⟨S16777216, .i32⟩
  | .hbm, ⟨16, _⟩ => ⟨S16777216, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S16777216, .i32⟩
  | .hbm, ⟨21, _⟩ => ⟨S16777216, .i32⟩
  | .hbm, ⟨22, _⟩ => ⟨S_, .i32⟩
  | .hbm, ⟨23, _⟩ => ⟨S16777216, .i32⟩
  | .hbm, ⟨24, _⟩ => ⟨S16777216, .i32⟩
  | .hbm, ⟨25, _⟩ => ⟨S2048x128, .f32⟩
  | .hbm, ⟨26, _⟩ => ⟨S2048x128, .f32⟩
  | .hbm, ⟨27, _⟩ => ⟨S262144, .f32⟩
  | .hbm, ⟨28, _⟩ => ⟨S_, .i32⟩
  | .hbm, ⟨29, _⟩ => ⟨S16777216, .i32⟩
  | .hbm, ⟨30, _⟩ => ⟨S16777216, .i1⟩
  | .hbm, ⟨31, _⟩ => ⟨S_, .i32⟩
  | .hbm, ⟨32, _⟩ => ⟨S16777216, .i32⟩
  | .hbm, ⟨33, _⟩ => ⟨S16777216, .i32⟩
  | .hbm, ⟨34, _⟩ => ⟨S16777216, .i32⟩
  | .hbm, ⟨35, _⟩ => ⟨S16777216x1, .i32⟩
  | .hbm, ⟨36, _⟩ => ⟨S1, .i32⟩
  | .hbm, ⟨37, _⟩ => ⟨S_, .i32⟩
  | .hbm, ⟨38, _⟩ => ⟨S16777216x1, .i32⟩
  | .hbm, ⟨39, _⟩ => ⟨S16777216x1, .i1⟩
  | .hbm, ⟨40, _⟩ => ⟨S1x1, .i32⟩
  | .hbm, ⟨41, _⟩ => ⟨S16777216x1, .i32⟩
  | .hbm, ⟨42, _⟩ => ⟨S16777216x1, .i1⟩
  | .hbm, ⟨43, _⟩ => ⟨S16777216x1, .i1⟩
  | .hbm, ⟨44, _⟩ => ⟨S_, .i1⟩
  | .hbm, ⟨45, _⟩ => ⟨S16777216, .i1⟩
  | .hbm, ⟨46, _⟩ => ⟨S16777216, .f32⟩
  | .hbm, ⟨47, _⟩ => ⟨S_, .f32⟩
  | .hbm, ⟨48, _⟩ => ⟨S16777216, .f32⟩
  | .hbm, ⟨49, _⟩ => ⟨S16777216, .f32⟩
  | .hbm, ⟨50, _⟩ => ⟨S262144x1, .f32⟩
  | .hbm, ⟨51, _⟩ => ⟨S262144x64, .f32⟩
  | .hbm, ⟨52, _⟩ => ⟨S262144x64, .f32⟩
  | .hbm, ⟨53, _⟩ => ⟨S16777216, .f32⟩
  | .hbm, ⟨54, _⟩ => ⟨S16777216, .f32⟩
  | .hbm, ⟨55, _⟩ => ⟨S_, .f32⟩
  | .hbm, ⟨56, _⟩ => ⟨S524288, .f32⟩
  | .hbm, ⟨57, _⟩ => ⟨S16777216x1, .i32⟩
  | .hbm, ⟨58, _⟩ => ⟨S524288, .f32⟩
  | .hbm, ⟨59, _⟩ => ⟨S524288, .f32⟩
  | .hbm, ⟨60, _⟩ => ⟨S524288, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S262144, .f32⟩
  | .hbm, ⟨65, _⟩ => ⟨S262144, .f32⟩
  | .hbm, ⟨66, _⟩ => ⟨S_, .f32⟩
  | .hbm, ⟨67, _⟩ => ⟨S262144, .f32⟩
  | .hbm, ⟨68, _⟩ => ⟨S262144, .f32⟩
  | .hbm, ⟨69, _⟩ => ⟨S_, .f32⟩
  | .hbm, ⟨70, _⟩ => ⟨S262144, .f32⟩
  | .hbm, ⟨71, _⟩ => ⟨S262144, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | _, _ => ⟨S262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_c_1 : Ref sig .tc := ⟨.hbm, 36, rfl⟩
abbrev main_call2_c_2 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_3 : Ref sig .tc := ⟨.hbm, 44, rfl⟩
abbrev main_call2_v12 : Ref sig .tc := ⟨.hbm, 45, rfl⟩
abbrev main_call2_v13 : Ref sig .tc := ⟨.hbm, 46, rfl⟩
abbrev main_call2_cst : Ref sig .tc := ⟨.hbm, 47, rfl⟩
abbrev main_call2_v14 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_call3_v0 : Ref sig .tc := ⟨.hbm, 60, rfl⟩
abbrev main_call3_cst : Ref sig .tc := ⟨.hbm, 61, rfl⟩
abbrev main_call3_v1 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_3 : Ref sig .tc := ⟨.hbm, 66, rfl⟩
abbrev main_v22 : Ref sig .tc := ⟨.hbm, 67, rfl⟩
abbrev main_v23 : Ref sig .tc := ⟨.hbm, 68, rfl⟩
abbrev main_cst_4 : Ref sig .tc := ⟨.hbm, 69, rfl⟩
abbrev main_v24 : Ref sig .tc := ⟨.hbm, 70, rfl⟩
abbrev main_v25 : Ref sig .tc := ⟨.hbm, 71, rfl⟩
abbrev main_cst_5 : Ref sig .tc := ⟨.hbm, 72, rfl⟩
abbrev main_v26 : Ref sig .tc := ⟨.hbm, 73, rfl⟩
abbrev main_cst_6 : Ref sig .tc := ⟨.hbm, 74, rfl⟩
abbrev main_v27 : Ref sig .tc := ⟨.hbm, 75, rfl⟩
abbrev main_cst_7 : Ref sig .tc := ⟨.hbm, 76, rfl⟩
abbrev main_v28 : Ref sig .tc := ⟨.hbm, 77, rfl⟩
abbrev main_call4_cst : Ref sig .tc := ⟨.hbm, 78, rfl⟩
abbrev main_v29 : Ref sig .tc := ⟨.hbm, 79, rfl⟩
abbrev main_cst_8 : Ref sig .tc := ⟨.hbm, 80, rfl⟩
abbrev main_v30 : Ref sig .tc := ⟨.hbm, 81, rfl⟩
abbrev main_v31 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S2x16777216_S1x16777216_0_0 : S2x16777216.Slices ![0, 0] S1x16777216
  shapeCasts_S1x16777216_S16777216 : S1x16777216.ShapeCasts S16777216
  slices_S2x16777216_S1x16777216_1_0 : S2x16777216.Slices ![1, 0] S1x16777216
  bcast_S_S16777216 : S_.BroadcastsInDim S16777216 (![] : Fin 0 → Fin S16777216.rank)
  shapeCasts_S262144_S2048x128 : S262144.ShapeCasts S2048x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S2048x128_S262144 : S2048x128.ShapeCasts S262144
  bcast_S16777216_S16777216x1_0 : S16777216.BroadcastsInDim S16777216x1 (![0] : Fin 1 → Fin S16777216x1.rank)
  bcast_S_S16777216x1 : S_.BroadcastsInDim S16777216x1 (![] : Fin 0 → Fin S16777216x1.rank)
  bcast_S1_S1x1_1 : S1.BroadcastsInDim S1x1 (![1] : Fin 1 → Fin S1x1.rank)
  bcast_S1x1_S16777216x1_0_1 : S1x1.BroadcastsInDim S16777216x1 (![0, 1] : Fin 2 → Fin S16777216x1.rank)
  reducesTo_S16777216x1_S16777216_d1 : S16777216x1.ReducesTo [1] S16777216
  h_S_ : 0 < S_.numel
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S16777216 : S262144x64.ShapeCasts S16777216
  bcast_S_S524288 : S_.BroadcastsInDim S524288 (![] : Fin 0 → Fin S524288.rank)
  reducesTo_S524288_S_d0 : S524288.ReducesTo [0] S_
  bcast_S_S262144 : S_.BroadcastsInDim S262144 (![] : Fin 0 → Fin S262144.rank)
  reducesTo_S262144_S_d0 : S262144.ReducesTo [0] S_
  gather_S524288_S16777216x1_S16777216_n_0_n_n_0_1_1_wf : GatherDims.WF S524288 S16777216x1 S16777216 [] [0] [] [0] [] 1 ![1]
  scatter_S524288_S16777216x1_S16777216_n_0_0_1_wf : ScatterDims.WF S524288 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S2048x128.size a
  hwx0_0 : ∀ i : grid0.Coords, EltTy.bits .f32 = 32 ∨ (Rect.block (s := S2048x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S2048x128.size a
  hwx0_1 : ∀ i : grid0.Coords, EltTy.bits .f32 = 32 ∨ (Rect.block (s := S2048x128) S256x128.size (cc0_transform_1 i) (hinb0_1 i)).WholeWords (EltTy.packing .f32)

variable [Facts₀]

def gather_S524288_S16777216x1_S16777216_n_0_n_n_0_1_1 : GatherDims S524288 S16777216x1 S16777216 where
  offsetDims := []
  collapsedSliceDims := [0]
  operandBatchingDims := []
  startIndicesBatchingDims := []
  startIndexMap := [0]
  indexVectorDim := 1
  sliceSizes := ![1]
  wf := gather_S524288_S16777216x1_S16777216_n_0_n_n_0_1_1_wf
def scatter_S524288_S16777216x1_S16777216_n_0_0_1 : ScatterDims S524288 S16777216x1 S16777216 where
  updateWindowDims := []
  insertedWindowDims := [0]
  scatterDimsToOperandDims := [0]
  indexVectorDim := 1
  wf := scatter_S524288_S16777216x1_S16777216_n_0_0_1_wf

abbrev win0_0 : Pipeline.Window sig grid0 :=
  Pipeline.Window.ofSpec (Memref.whole main_v6) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S262144 : Shape := ⟨1, ![262144]⟩
abbrev S262144x64 : Shape := ⟨2, ![262144, 64]⟩
abbrev S2x16777216 : Shape := ⟨2, ![2, 16777216]⟩
abbrev S524288 : Shape := ⟨1, ![524288]⟩
abbrev S_ : Shape := ⟨0, ![]⟩
abbrev S262144x1 : Shape := ⟨2, ![262144, 1]⟩
abbrev S16777216 : Shape := ⟨1, ![16777216]⟩
abbrev S1x16777216 : Shape := ⟨2, ![1, 16777216]⟩
abbrev S16777216x1 : Shape := ⟨2, ![16777216, 1]⟩

abbrev nBuf : Space → Nat
  | .hbm => 60
  | .vmem => 0
  | .smem => 0
  | _ => 0

abbrev bufTy : (tb : Table) → Fin (tcTables nBuf tb) → BufTy
  | .hbm, ⟨0, _⟩ => ⟨S262144, .f32⟩
  | .hbm, ⟨1, _⟩ => ⟨S262144x64, .f32⟩
  | .hbm, ⟨2, _⟩ => ⟨S2x16777216, .i32⟩
  | .hbm, ⟨3, _⟩ => ⟨S524288, .f32⟩
  | .hbm, ⟨4, _⟩ => ⟨S524288, .f32⟩
  | .hbm, ⟨5, _⟩ => ⟨S262144, .f32⟩
  | .hbm, ⟨6, _⟩ => ⟨S262144, .f32⟩
  | .hbm, ⟨7, _⟩ => ⟨S_, .f32⟩
  | .hbm, ⟨8, _⟩ => ⟨S262144, .f32⟩
  | .hbm, ⟨9, _⟩ => ⟨S262144, .f32⟩
  | .hbm, ⟨10, _⟩ => ⟨S_, .f32⟩
  | .hbm, ⟨11, _⟩ => ⟨S262144, .f32⟩
  | .hbm, ⟨12, _⟩ => ⟨S262144, .f32⟩
  | .hbm, ⟨13, _⟩ => ⟨S_, .f32⟩
  | .hbm, ⟨14, _⟩ => ⟨S262144, .f32⟩
  | .hbm, ⟨15, _⟩ => ⟨S262144, .f32⟩
  | .hbm, ⟨16, _⟩ => ⟨S_, .f32⟩
  | .hbm, ⟨17, _⟩ => ⟨S262144, .f32⟩
  | .hbm, ⟨18, _⟩ => ⟨S262144, .f32⟩
  | .hbm, ⟨19, _⟩ => ⟨S_, .f32⟩
  | .hbm, ⟨20, _⟩ => ⟨S262144, .f32⟩
  | .hbm, ⟨21, _⟩ => ⟨S262144, .f32⟩
  | .hbm, ⟨22, _⟩ => ⟨S262144x1, .f32⟩
  | .hbm, ⟨23, _⟩ => ⟨S262144x64, .f32⟩
  | .hbm, ⟨24, _⟩ => ⟨S262144x64, .f32⟩
  | .hbm, ⟨25, _⟩ => ⟨S16777216, .f32⟩
  | .hbm, ⟨26, _⟩ => ⟨S1x16777216, .i32⟩
  | .hbm, ⟨27, _⟩ => ⟨S16777216, .i32⟩
  | .hbm, ⟨28, _⟩ => ⟨S1x16777216, .i32⟩
  | .hbm, ⟨29, _⟩ => ⟨S16777216, .i32⟩
  | .hbm, ⟨30, _⟩ => ⟨S_, .i32⟩
  | .hbm, ⟨31, _⟩ => ⟨S16777216, .i32⟩
  | .hbm, ⟨32, _⟩ => ⟨S16777216, .i1⟩
  | .hbm, ⟨33, _⟩ => ⟨S_, .i32⟩
  | .hbm, ⟨34, _⟩ => ⟨S16777216, .i32⟩
  | .hbm, ⟨35, _⟩ => ⟨S16777216, .i32⟩
  | .hbm, ⟨36, _⟩ => ⟨S16777216, .i32⟩
  | .hbm, ⟨37, _⟩ => ⟨S16777216x1, .i32⟩
  | .hbm, ⟨38, _⟩ => ⟨S16777216, .f32⟩
  | .hbm, ⟨39, _⟩ => ⟨S16777216, .f32⟩
  | .hbm, ⟨40, _⟩ => ⟨S_, .f32⟩
  | .hbm, ⟨41, _⟩ => ⟨S524288, .f32⟩
  | .hbm, ⟨42, _⟩ => ⟨S16777216x1, .i32⟩
  | .hbm, ⟨43, _⟩ => ⟨S524288, .f32⟩
  | .hbm, ⟨44, _⟩ => ⟨S524288, .f32⟩
  | .hbm, ⟨45, _⟩ => ⟨S524288, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_call1_cst : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S16777216 : S262144x64.ShapeCasts S16777216
  slices_S2x16777216_S1x16777216_0_0 : S2x16777216.Slices ![0, 0] S1x16777216
  shapeCasts_S1x16777216_S16777216 : S1x16777216.ShapeCasts S16777216
  slices_S2x16777216_S1x16777216_1_0 : S2x16777216.Slices ![1, 0] S1x16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S524288 : S_.BroadcastsInDim S524288 (![] : Fin 0 → Fin S524288.rank)
  reducesTo_S524288_S_d0 : S524288.ReducesTo [0] S_
  h_S_ : 0 < S_.numel
  reducesTo_S262144_S_d0 : S262144.ReducesTo [0] S_
  gather_S524288_S16777216x1_S16777216_n_0_n_n_0_1_1_wf : GatherDims.WF S524288 S16777216x1 S16777216 [] [0] [] [0] [] 1 ![1]
  scatter_S524288_S16777216x1_S16777216_n_0_0_1_wf : ScatterDims.WF S524288 S16777216x1 S16777216 [] [0] [0] 1

variable [Facts₀]

def gather_S524288_S16777216x1_S16777216_n_0_n_n_0_1_1 : GatherDims S524288 S16777216x1 S16777216 where
  offsetDims := []
  collapsedSliceDims := [0]
  operandBatchingDims := []
  startIndicesBatchingDims := []
  startIndexMap := [0]
  indexVectorDim := 1
  sliceSizes := ![1]
  wf := gather_S524288_S16777216x1_S16777216_n_0_n_n_0_1_1_wf
def scatter_S524288_S16777216x1_S16777216_n_0_0_1 : ScatterDims S524288 S16777216x1 S16777216 where
  updateWindowDims := []
  insertedWindowDims := [0]
  scatterDimsToOperandDims := [0]
  indexVectorDim := 1
  wf := scatter_S524288_S16777216x1_S16777216_n_0_0_1_wf

class Facts : Prop extends Facts₀ where

variable [Facts]
-- ==== Proof.LossShape.lean ====
/-
  The loss, as both programs compute it once three intermediate arrays are given.

  Both programs end in the same host arithmetic:
    loss = max(mean ρ − 0.4, 0) + 1 · ‖K u − f‖,
  where ρ = 1 / (1 + e^(−w)) is the density of every logit, and K u is the sparse matrix–vector product assembled by
  adding, for every stored entry k of the matrix, the value  (Kₑ · scale)[k] · ug[k]  into slot rows[k] of a zero vector.
  They differ only in how three arrays are produced: the stiffness factors `scale` (one per element), the gathered
  displacements `ug` (one per stored entry) and the row indices `ri`.  The definitions below state the common part once, as
  a function of those three arrays and of the inputs, and the kernel's own gather (jnp.take: negative indices wrapped, an
  in-range mask, NaN where the mask is off).
-/
import proofs.«431163_j22419729285763_3_alg».proof.KernelIdeal

noncomputable section

namespace Cert.KernelIdeal.Loss

open Cert.KernelIdeal Idealize.ShloMosaic

variable {F : FTy → Type} [FloatOps F] [Cert.KernelIdeal.Facts]
open Cert.KernelIdeal.Facts₀ Cert.KernelIdeal.Facts

/-- The density of every logit, as the host computes it: 1 / (1 + e^(−w)). -/
def density (W : FVec F S262144 .f32) : FVec F S262144 .f32 :=
  Host.divf (broadcastInDim S262144 ![] bcast_S_S262144 (constant S_ .f32 0x3F800000#32))
    (addf (broadcastInDim S262144 ![] bcast_S_S262144 (constant S_ .f32 0x3F800000#32)) (Host.exp (Host.negf W)))

/-- The volume-fraction penalty max(mean ρ − 0.4, 0). -/
def volumePenalty (W : FVec F S262144 .f32) : FVec F S_ .f32 :=
  maximumf (subf (Host.divf (Host.reduceAdd (density W) (constant S_ .f32 0x00000000#32) reducesTo_S262144_S_d0 h_S_)
    (constant S_ .f32 0x48800000#32)) (constant S_ .f32 0x3ECCCCCD#32)) (constant S_ .f32 0x00000000#32)

/-- The value of every stored matrix entry times its gathered displacement: (Kₑ · scale, flattened) · ug. -/
def weighted (K : FVec F S262144x64 .f32) (scale : FVec F S262144 .f32) (ug : FVec F S16777216 .f32) : FVec F S16777216 .f32 :=
  mulf (shapeCast S16777216 (mulf K (broadcastInDim S262144x64 ![0, 1] bcast_S262144x1_S262144x64_0_1
    (broadcastInDim S262144x1 ![0] bcast_S262144_S262144x1_0 scale))) shapeCasts_S262144x64_S16777216) ug

/-- The assembled product: every value added into the slot its row index names, from zero. -/
def assembled (vals : FVec F S16777216 .f32) (ri : IVec S16777216 32) : FVec F S524288 .f32 :=
  Host.scatterAdd scatter_S524288_S16777216x1_S16777216_n_0_0_1
    (broadcastInDim S524288 ![] bcast_S_S524288 (constant S_ .f32 0x00000000#32))
    (broadcastInDim S16777216x1 ![0] bcast_S16777216_S16777216x1_0 ri) vals

/-- The Euclidean norm of the residual K u − f. -/
def residualNorm (Ku f : FVec F S524288 .f32) : FVec F S_ .f32 :=
  Host.sqrt (Host.reduceAdd (mulf (subf Ku f) (subf Ku f)) (constant S_ .f32 0x00000000#32) reducesTo_S524288_S_d0 h_S_)

/-- The loss from the three intermediate arrays. -/
def loss (W : FVec F S262144 .f32) (K : FVec F S262144x64 .f32) (f : FVec F S524288 .f32)
    (scale : FVec F S262144 .f32) (ug : FVec F S16777216 .f32) (ri : IVec S16777216 32) : FVec F S_ .f32 :=
  addf (volumePenalty W) (mulf (constant S_ .f32 0x3F800000#32) (residualNorm (assembled (weighted K scale ug) ri) f))

/-- A negative index counted from the end: i + 524288 where i < 0, else i. -/
def wrapped (ci : IVec S16777216 32) : IVec S16777216 32 :=
  select (cmpi .slt ci (broadcastInDim S16777216 ![] bcast_S_S16777216 (constantI S_ 32 0#32)))
    (addi ci (broadcastInDim S16777216 ![] bcast_S_S16777216 (constantI S_ 32 524288#32))) ci

/-- The in-range mask of the wrapped indices: 0 ≤ i ≤ 524287, entry by entry. -/
def inRange (wi : IVec S16777216 32) : IVec S16777216 1 :=
  Host.reduce IntOp.andi
    (andi
      (cmpi .sge (broadcastInDim S16777216x1 ![0] bcast_S16777216_S16777216x1_0 wi)
        (broadcastInDim S16777216x1 ![] bcast_S_S16777216x1 (constantI S_ 32 0#32)))
      (cmpi .sle (broadcastInDim S16777216x1 ![0] bcast_S16777216_S16777216x1_0 wi)
        (broadcastInDim S16777216x1 ![0, 1] bcast_S1x1_S16777216x1_0_1
          (broadcastInDim S1x1 ![1] bcast_S1_S1x1_1 (constantI S1 32 524287#32)))))
    (constantI S_ 1 1#1) reducesTo_S16777216x1_S16777216_d1 h_S_

/-- The kernel side's gather (jnp.take): the table at the wrapped index where that is in range, NaN elsewhere. -/
def taken (u : FVec F S524288 .f32) (ci : IVec S16777216 32) : FVec F S16777216 .f32 :=
  select (inRange (wrapped ci))
    (Host.gather gather_S524288_S16777216x1_S16777216_n_0_n_n_0_1_1 u
      (broadcastInDim S16777216x1 ![0] bcast_S16777216_S16777216x1_0 (wrapped ci)))
    (broadcastInDim S16777216 ![] bcast_S_S16777216 (constant S_ .f32 0x7FC00000#32))

/-- Clamping every index into [0, 524287] (jnp.clip): min(524287, max(0, i)). -/
def clipped (ri : IVec S16777216 32) : IVec S16777216 32 :=
  minsi (broadcastInDim S16777216 ![] bcast_S_S16777216 (constantI S_ 32 524287#32))
    (maxsi (broadcastInDim S16777216 ![] bcast_S_S16777216 (constantI S_ 32 0#32)) ri)

/-- Row r of the [2, n] index table, as a vector of n words. -/
def rowsOf (idx : IVec S2x16777216 32) : IVec S16777216 32 :=
  shapeCast S16777216 (extractStridedSlice S1x16777216 ![0, 0] idx slices_S2x16777216_S1x16777216_0_0) shapeCasts_S1x16777216_S16777216
def colsOf (idx : IVec S2x16777216 32) : IVec S16777216 32 :=
  shapeCast S16777216 (extractStridedSlice S1x16777216 ![1, 0] idx slices_S2x16777216_S1x16777216_1_0) shapeCasts_S1x16777216_S16777216

end Cert.KernelIdeal.Loss

end
-- ==== Proof.FactorArray.lean ====
/-
  The array the kernel leaves: the stiffness factor of every logit.

  The kernel is launched at eight points.  Point t reads rows 256·t … 256·t + 255 of the [2048, 128] view of the logits and
  writes the same rows of the [2048, 128] result; both windows move with the point, block index (t, 0).  The body is
  pointwise: entry (r, l) of the block it writes is  ε + ((σ·σ)·σ)·1  of entry (r, l) of the block it read, σ the logistic.
  So what every point writes back is its block of ONE whole-array function, the factor applied entry by entry to the logits'
  view, and the eight blocks tile the result: after the run the result array is that function.
-/
import proofs.«431163_j22419729285763_3_alg».proof.Proof.Gen.KernelIdeal.Frame
import Idealize.ShloMosaic.Lib.Pipeline.Value

set_option maxRecDepth 16384

noncomputable section

namespace Cert.KernelIdeal.FactorArray

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The stiffness factor of one density logit, as the kernel body spells it: ε + ((σ·σ)·σ)·1 with σ the logistic. -/
def factor (w : F .f32) : F .f32 :=
  FloatOps.addf (Scalar.ofBits .f32 0x3089705F#32)
    (FloatOps.mulf (FloatOps.mulf (FloatOps.mulf (FloatOps.logistic w) (FloatOps.logistic w)) (FloatOps.logistic w))
      (Scalar.ofBits .f32 0x3F800000#32))

/-- The body's payload, entry by entry, is the factor of the entry it loaded. -/
theorem payload_apply (x0 : Vec F S256x128 .f32) (j : S256x128.Idx) : k0_pay1 x0 j = factor (x0 j) := by
  unfold k0_pay1 factor
  rw [shapeCast_self]
  rfl

/-- The whole-array function: the factor of every entry of the logits' [2048, 128] view. -/
abbrev factors (a : S2048x128.Idx → Elt F .f32) : S2048x128.Idx → Elt F .f32 := fun i => factor (a i)

theorem zero_offsets : (![0, 0] : Fin 2 → Nat) = fun _ => 0 := funext fun a => by fin_cases a <;> rfl

/-- The two windows' printed index maps, decided over the eight points: the input's block index is the output's on both
    axes, and the output's stays in [0, 7] × [0, 0]. -/
theorem index_facts : ∀ t : Fin cfg0.N, win0_0.index t (0 : Fin 2) = win0_1.index t (0 : Fin 2)
    ∧ win0_0.index t (1 : Fin 2) = win0_1.index t (1 : Fin 2)
    ∧ win0_1.index t (0 : Fin 2) ≤ 7 ∧ win0_1.index t (1 : Fin 2) ≤ 0 :=
  (by decide +kernel : ∀ t : Fin grid0.N, _)

/-- Every block row of the result is some point's. -/
theorem index_onto : ∀ q0 : Fin 8, ∃ t : Fin cfg0.N, win0_1.index t = ![q0.val, 0] :=
  (by decide +kernel : ∀ q0 : Fin 8, ∃ t : Fin grid0.N, win0_1.index t = ![q0.val, 0])

/-- What point t writes back is block t of the factors of the logits' view as the region finds it. -/
theorem flushed_eq (c : Dev nD) (t : Fin cfg0.N) :
    (dats m 0 c).flushed 1 t = ((cfg0.win 1).blk t).view.read (Elt F) (factors (V m c main_v6)) := by
  show (cfg0.win 1).cut (grid0.coords t) ((dats m 0 c).after 1 t) = _
  rw [after0_1]
  unfold out0_1
  rw [View.canon_unit_zero zero_offsets]
  simp only [View.ld_unit_zero (S := S256x128) zero_offsets]
  obtain ⟨e0, e1, -, -⟩ := index_facts t
  have hp : k0_pay1 (iblk m c 0 t) = fun j => factor (iblk m c 0 t j) := funext (payload_apply (iblk m c 0 t))
  rw [hp]
  funext j
  show factor (V m c main_v6 (((cfg0.win 0).blk t).view.emb j)) = factor (V m c main_v6 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 128 + 1 * (j 1).val = win0_1.index t (1 : Fin 2) * 128 + 1 * (j 1).val; omega
  rw [h0]

/-- An index of the result is in point t's block iff each coordinate is in the block's range on its axis. -/
theorem mem_block (t : Fin cfg0.N) (i : S2048x128.Idx) :
    i ∈ ((cfg0.win 1).blk t).view.set ↔ ∀ a : Fin 2, win0_1.index t a * S256x128.size a ≤ (i a).val ∧ (i a).val < win0_1.index t a * S256x128.size a + S256x128.size a := by
  show i ∈ ((View.whole main_v7).slice (win0_1.rect t)).set ↔ _
  rw [View.set_slice_whole, Rect.mem_set_unit]
  exact Iff.rfl

/-- The eight blocks tile the result: row r lies in the block of the point whose block row is r / 256. -/
theorem covered (i : S2048x128.Idx) : ∃ t : Fin cfg0.N, (cfg0.win 1).flush t = true ∧ i ∈ ((cfg0.win 1).blk t).view.set := by
  have hi0 : (i 0).val < 2048 := (i 0).isLt
  have hi1 : (i 1).val < 128 := (i 1).isLt
  obtain ⟨t, ht⟩ := index_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 128 ≤ (i 1).val ∧ (i 1).val < win0_1.index t (1 : Fin 2) * 128 + 128; omega

/-- After the run the result array holds the factor of every entry of the logits' view. -/
theorem final (c : Dev nD) : (dats m 0 c).arrAt 1 cfg0.N = factors (V m c main_v6) :=
  (dats m 0 c).arrAt_eq_of_cover 1 (factors (V m c main_v6)) (fun t _ => flushed_eq m c t) covered

end Cert.KernelIdeal.FactorArray

end
-- ==== Proof.LibHostCalls.lean ====
/-
  Reading back host lines that came from a module-local function (a `func.call` such as jnp.take's `@_take` or jnp.clip's
  `@clip`, whose operations are the typed-reference builders `TRef.unary`, `TRef.binary`, …).

  A typed builder writes its result through `TRef.toBuf` and reads its operands through `TRef.ofBuf`, both casts along the
  reference's `ty_eq`.  A value passed from one operation of the function to the next is therefore wrapped
  `ofBuf (toBuf v)`: moved to the buffer's own type and back.  `cast_round` says such a round trip is the value, whatever
  the two equalities' proofs are, so `simp only [TRef.toBuf, TRef.ofBuf, cast_round]` cancels every pair syntactically,
  without looking at any buffer's type.  What is left afterwards is at most one cast around the whole result — removed by
  `refine eq_of_heq ((cast_heq _ _).trans (heq_of_eq ?_))` — and casts around the values read from the valuation, each
  rewritten by a local equation `∀ h, cast h (W b) = W b := fun _ => rfl` stated at the buffer's literal type.
  A long line is best read in parts, each from an arbitrary valuation, joined by the library's `StableHlo.after_append`.
-/
import Idealize.ShloMosaic.Lib.StableHlo.Run

noncomputable section

namespace HostCalls

open Idealize.ShloMosaic Idealize.ShloMosaic.StableHlo

/-- A value moved to another type along an equality and back is the value, whatever the two equalities' proofs. -/
theorem cast_round {A B : Type} (h1 : A = B) (h2 : B = A) (v : A) : cast h2 (cast h1 v) = v := by
  subst h1; rfl

end HostCalls

end
-- ==== Proof.KernelTail.lean ====
/-
  The host lines around the kernel's region, read back.

  After the region the program reshapes the kernel's [2048, 128] result to one factor per element, gathers the displacements
  at the clamped column indices, multiplies, assembles by the clamped row indices and forms the loss.  Before the region it
  slices the two rows out of the index table, clamps each to [0, 524287] and views the logits as [2048, 128].  Read from any
  buffer contents, these lines compute the loss of LossShape from: the logits, the element matrices, the load vector, the
  reshaped result array, the kernel side's gather of the displacements at the clamped columns, and the clamped rows.
  The lines after the region are read in two parts — the reshape and the gather first, the arithmetic after them — and
  joined: running a list of operations is running its first part and then its second.
-/
import proofs.«431163_j22419729285763_3_alg».proof.Proof.Gen.KernelIdeal.Frame
import proofs.«431163_j22419729285763_3_alg».proof.Proof.LossShape
import proofs.«431163_j22419729285763_3_alg».proof.Proof.LibHostCalls
import Idealize.ShloMosaic.Lib.StableHlo.Run

set_option maxRecDepth 16384

noncomputable section

namespace Cert.KernelIdeal.Tail

open Cert.KernelIdeal Cert.KernelIdeal.Gen Cert.KernelIdeal.Loss
open Idealize.ShloMosaic Idealize.ShloMosaic.TcCoe Idealize.SL.Sem Idealize.ShloMosaic.StableHlo HostCalls

variable {F : FTy → Type} [FloatOps F]

/-! ## The reshape and the gather (the first 23 lines after the region) -/

set_option maxHeartbeats 2000000 in
/-- They leave the factors as one vector, -/
theorem head_factors (W : Valuation τ sig (Elt F)) :
    StableHlo.after (hostOps1 ++ hostOps1_1) W (Proc.devRef .tc main_v8)
      = shapeCast S262144 (W (Proc.devRef .tc main_v7)) shapeCasts_S2048x128_S262144 := by
  generalize hR : shapeCast S262144 _ _ = R
  simp only [hostOps1, hostOps1_1, List.cons_append, List.nil_append]
  after_results_simp
  subst hR
  rfl

set_option maxHeartbeats 2000000 in
/-- the displacements taken at the clamped columns, -/
theorem head_taken (W : Valuation τ sig (Elt F)) :
    StableHlo.after (hostOps1 ++ hostOps1_1) W (Proc.devRef .tc main_v9)
      = taken (W (Proc.devRef .tc main_arg3)) (W (Proc.devRef .tc main_v5)) := by
  generalize hR : taken (F := F) _ _ = R
  simp only [hostOps1, hostOps1_1, List.cons_append, List.nil_append]
  after_results_simp
  -- the values passed through the called function's own buffers come back unchanged
  simp only [TRef.toBuf, TRef.ofBuf, cast_round]
  subst hR
  unfold taken inRange wrapped
  refine eq_of_heq ((cast_heq _ _).trans (heq_of_eq ?_))
  have e5 : ∀ (h : (Proc.devRef (τ := τ) (sig := sig) .tc main_v5).ty.Contents (Elt F) = (⟨S16777216, .i32⟩ : BufTy).Contents (Elt F)),
      cast h (W (Proc.devRef .tc main_v5)) = W (Proc.devRef .tc main_v5) := fun _ => rfl
  have e3 : ∀ (h : (Proc.devRef (τ := τ) (sig := sig) .tc main_arg3).ty.Contents (Elt F) = (⟨S524288, .f32⟩ : BufTy).Contents (Elt F)),
      cast h (W (Proc.devRef .tc main_arg3)) = W (Proc.devRef .tc main_arg3) := fun _ => rfl
  simp only [e5, e3]

set_option maxHeartbeats 2000000 in
/-- and the buffers the arithmetic reads besides as they were. -/
theorem head_keeps (W : Valuation τ sig (Elt F)) :
    StableHlo.after (hostOps1 ++ hostOps1_1) W (Proc.devRef .tc main_arg0) = W (Proc.devRef .tc main_arg0)
    ∧ StableHlo.after (hostOps1 ++ hostOps1_1) W (Proc.devRef .tc main_arg1) = W (Proc.devRef .tc main_arg1)
    ∧ StableHlo.after (hostOps1 ++ hostOps1_1) W (Proc.devRef .tc main_arg4) = W (Proc.devRef .tc main_arg4)
    ∧ StableHlo.after (hostOps1 ++ hostOps1_1) W (Proc.devRef .tc main_v4) = W (Proc.devRef .tc main_v4) := by
  simp only [hostOps1, hostOps1_1, List.cons_append, List.nil_append]
  after_results_simp
  exact ⟨trivial, trivial, trivial, trivial⟩

/-! ## The arithmetic (the remaining 33 lines) -/

set_option maxHeartbeats 4000000 in
/-- From any contents W: the loss of W's logits, element matrices, load vector, factors, gathered displacements and rows. -/
theorem arithmetic (W : Valuation τ sig (Elt F)) :
    StableHlo.after (hostOps1_2 ++ (hostOps1_3 ++ (hostOps1_4 ++ (hostOps1_5 ++ hostOps1_6)))) W (Proc.devRef .tc main_v31)
      = loss (W (Proc.devRef .tc main_arg0)) (W (Proc.devRef .tc main_arg1)) (W (Proc.devRef .tc main_arg4))
          (W (Proc.devRef .tc main_v8)) (W (Proc.devRef .tc main_v9)) (W (Proc.devRef .tc main_v4)) := by
  generalize hR : loss (F := F) _ _ _ _ _ _ = R
  simp only [hostOps1_2, hostOps1_3, hostOps1_4, hostOps1_5, hostOps1_6, List.cons_append, List.nil_append]
  after_results_simp
  subst hR
  unfold loss volumePenalty density residualNorm assembled weighted
  rfl

/-! ## Joined -/

/-- The lines after the region, from any contents W: the result buffer ends at the loss of W's logits, element matrices and
    load vector, with the factors the reshaped result array, the displacements taken at W's clamped columns, and W's
    clamped rows. -/
theorem result (W : Valuation τ sig (Elt F)) :
    StableHlo.after (List.flatten [hostOps1, hostOps1_1, hostOps1_2, hostOps1_3, hostOps1_4, hostOps1_5, hostOps1_6]) W (Proc.devRef .tc main_v31)
      = loss (W (Proc.devRef .tc main_arg0)) (W (Proc.devRef .tc main_arg1)) (W (Proc.devRef .tc main_arg4))
          (shapeCast S262144 (W (Proc.devRef .tc main_v7)) shapeCasts_S2048x128_S262144)
          (taken (W (Proc.devRef .tc main_arg3)) (W (Proc.devRef .tc main_v5))) (W (Proc.devRef .tc main_v4)) := by
  have hsplit : List.flatten [hostOps1, hostOps1_1, hostOps1_2, hostOps1_3, hostOps1_4, hostOps1_5, hostOps1_6]
      = (hostOps1 ++ hostOps1_1 : List (HloOp τ sig (Elt F))) ++ (hostOps1_2 ++ (hostOps1_3 ++ (hostOps1_4 ++ (hostOps1_5 ++ hostOps1_6)))) := by
    simp only [List.flatten_cons, List.flatten_nil, List.append_nil, List.append_assoc]
  obtain ⟨k0, k1, k4, kr⟩ := head_keeps (F := F) W
  rw [hsplit, StableHlo.after_append, arithmetic, head_factors, head_taken, k0, k1, k4, kr]

end Cert.KernelIdeal.Tail

end
-- ==== Proof.KernelEntry.lean ====
/-
  The host lines before the kernel's region, read back.

  Before the region the program slices the two rows out of the [2, n] index table, clamps each to [0, 524287] (jnp.clip) and
  views the logits as [2048, 128].  Read from any buffer contents W these 21 lines leave: the clamped rows, the clamped
  columns, the logits' view.
-/
import proofs.«431163_j22419729285763_3_alg».proof.Proof.Gen.KernelIdeal.Frame
import proofs.«431163_j22419729285763_3_alg».proof.Proof.LossShape
import Idealize.ShloMosaic.Lib.StableHlo.Run

set_option maxRecDepth 16384

noncomputable section

namespace Cert.KernelIdeal.Entry

open Cert.KernelIdeal Cert.KernelIdeal.Gen Cert.KernelIdeal.Loss
open Idealize.ShloMosaic Idealize.ShloMosaic.TcCoe Idealize.SL.Sem Idealize.ShloMosaic.StableHlo

variable {F : FTy → Type} [FloatOps F]

set_option maxHeartbeats 2000000 in
/-- The clamped rows, -/
theorem rows_entry (W : Valuation τ sig (Elt F)) :
    StableHlo.after (List.flatten [hostOps0, hostOps0_1, hostOps0_2, hostOps0_3, hostOps0_4]) W (Proc.devRef .tc main_v4)
      = clipped (rowsOf (W (Proc.devRef .tc main_arg2))) := by
  generalize hR : clipped _ = R
  simp only [hostOps0, hostOps0_1, hostOps0_2, hostOps0_3, hostOps0_4, List.flatten_cons, List.flatten_nil, List.append_nil, List.cons_append, List.nil_append]
  after_results_simp
  subst hR
  unfold clipped rowsOf
  rfl

set_option maxHeartbeats 2000000 in
/-- the clamped columns, -/
theorem cols_entry (W : Valuation τ sig (Elt F)) :
    StableHlo.after (List.flatten [hostOps0, hostOps0_1, hostOps0_2, hostOps0_3, hostOps0_4]) W (Proc.devRef .tc main_v5)
      = clipped (colsOf (W (Proc.devRef .tc main_arg2))) := by
  generalize hR : clipped _ = R
  simp only [hostOps0, hostOps0_1, hostOps0_2, hostOps0_3, hostOps0_4, List.flatten_cons, List.flatten_nil, List.append_nil, List.cons_append, List.nil_append]
  after_results_simp
  subst hR
  unfold clipped colsOf
  rfl

set_option maxHeartbeats 2000000 in
/-- and the logits' [2048, 128] view. -/
theorem logits_entry (W : Valuation τ sig (Elt F)) :
    StableHlo.after (List.flatten [hostOps0, hostOps0_1, hostOps0_2, hostOps0_3, hostOps0_4]) W (Proc.devRef .tc main_v6)
      = shapeCast S2048x128 (W (Proc.devRef .tc main_arg0)) shapeCasts_S262144_S2048x128 := by
  generalize hR : shapeCast S2048x128 _ _ = R
  simp only [hostOps0, hostOps0_1, hostOps0_2, hostOps0_3, hostOps0_4, List.flatten_cons, List.flatten_nil, List.append_nil, List.cons_append, List.nil_append]
  after_results_simp
  subst hR
  rfl

end Cert.KernelIdeal.Entry

end
-- ==== Proof.KernelValue.lean ====
/-
  The idealized kernel's run, with its result named.

  The generated frame run leaves the result buffer at the host lines after the region applied to the region's exit
  contents: the kernel's result array at what the eight points wrote (FactorArray: the factor of every logit of the
  [2048, 128] view), every other buffer at what the lines before the region left (KernelEntry: the clamped rows and columns
  and the view of the logits; the arguments as launched); KernelTail reads the lines after the region from those contents.  Put together, the result is the loss of LossShape at
      scale = the factors viewed as one vector,  ug = the displacements taken at the clamped columns,  ri = the clamped rows.
-/
import proofs.«431163_j22419729285763_3_alg».proof.Proof.Gen.KernelIdeal.Frame
import proofs.«431163_j22419729285763_3_alg».proof.Proof.LossShape
import proofs.«431163_j22419729285763_3_alg».proof.Proof.FactorArray
import proofs.«431163_j22419729285763_3_alg».proof.Proof.KernelTail
import proofs.«431163_j22419729285763_3_alg».proof.Proof.KernelEntry

set_option maxRecDepth 16384

noncomputable section

namespace Cert.KernelIdeal.KernelValue

open Cert.KernelIdeal Cert.KernelIdeal.Gen Cert.KernelIdeal.Loss
open Idealize.ShloMosaic Idealize.ShloMosaic.TcCoe Idealize.SL.Sem Idealize.ShloMosaic.StableHlo

variable {F : FTy → Type} [FloatOps F]

/-- The idealized kernel's result as a function of the five argument arrays. -/
def kernelLoss (a0 : FVec F S262144 .f32) (a1 : FVec F S262144x64 .f32) (a2 : IVec S2x16777216 32)
    (a3 a4 : FVec F S524288 .f32) : FVec F S_ .f32 :=
  loss a0 a1 a4
    (shapeCast S262144 (FactorArray.factors (F := F) (shapeCast S2048x128 a0 Facts₀.shapeCasts_S262144_S2048x128)) Facts₀.shapeCasts_S2048x128_S262144)
    (taken a3 (clipped (colsOf a2))) (clipped (rowsOf a2))

variable (m : (ℓ : Loc nD τ sig) → Buf (Elt F) ℓ) (ρ : Dev nD → PrngReg)

/-- What the lines after the region leave in the result buffer, from the region's exit contents. -/
theorem tail_value (c : Dev nD) :
    Pipeline.afterTail₀ cfgs (dats m) 0 (V0 m) [hostOps1, hostOps1_1, hostOps1_2, hostOps1_3, hostOps1_4, hostOps1_5, hostOps1_6] c main_v31
      = kernelLoss (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  rw [Tail.result]
  rw [Pipeline.withArrays_of_ne _ c (V0 m c) _ main_arg0 (by exact (by decide : ∀ w, Pipeline.arrRef spec0 w ≠ main_arg0)),
    Pipeline.withArrays_of_ne _ c (V0 m c) _ main_arg1 (by exact (by decide : ∀ w, Pipeline.arrRef spec0 w ≠ main_arg1)),
    Pipeline.withArrays_of_ne _ c (V0 m c) _ main_arg3 (by exact (by decide : ∀ w, Pipeline.arrRef spec0 w ≠ main_arg3)),
    Pipeline.withArrays_of_ne _ c (V0 m c) _ main_arg4 (by exact (by decide : ∀ w, Pipeline.arrRef spec0 w ≠ main_arg4)),
    Pipeline.withArrays_of_ne _ c (V0 m c) _ main_v4 (by exact (by decide : ∀ w, Pipeline.arrRef spec0 w ≠ main_v4)),
    Pipeline.withArrays_of_ne _ c (V0 m c) _ main_v5 (by exact (by decide : ∀ w, Pipeline.arrRef spec0 w ≠ main_v5)),
    Pipeline.withArrays_arr spec0 launch0.win.arr_inj c _ _ 1]
  rw [show V0 m c (Proc.devRef .tc main_arg0) = m ((c : Thread nD τ).loc main_arg0) from V_main_arg0 m c,
    show V0 m c (Proc.devRef .tc main_arg1) = m ((c : Thread nD τ).loc main_arg1) from V_main_arg1 m c,
    show V0 m c (Proc.devRef .tc main_arg3) = m ((c : Thread nD τ).loc main_arg3) from V_main_arg3 m c,
    show V0 m c (Proc.devRef .tc main_arg4) = m ((c : Thread nD τ).loc main_arg4) from V_main_arg4 m c,
    show V0 m c (Proc.devRef .tc main_v4) = clipped (rowsOf (m ((c : Thread nD τ).loc main_arg2))) from Entry.rows_entry _,
    show V0 m c (Proc.devRef .tc main_v5) = clipped (colsOf (m ((c : Thread nD τ).loc main_arg2))) from Entry.cols_entry _,
    show (dats m 0 c).arrAt 1 (cfgs 0).N
        = FactorArray.factors (F := F) (shapeCast S2048x128 (m ((c : Thread nD τ).loc main_arg0)) Facts₀.shapeCasts_S262144_S2048x128)
      from (FactorArray.final m c).trans (congrArg (FactorArray.factors (F := F)) (Entry.logits_entry _))]
  rfl

/-- THE IDEALIZED KERNEL'S RUN, its result named: every weakly fair execution terminates with the result buffer at the
    kernel's loss of the launch contents and the five argument arrays unchanged. -/
theorem run : θ_run defs (onTc (τ := τ) (main (F := F))) ⟨m, fun _ => 0, ρ⟩ (fun r => ∀ c : Dev nD,
      r.2.mem ((c.tc : Thread nD τ).loc main_v31)
        = kernelLoss (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v31 (Pipeline.mem_restRefs_of main_v31 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.PowerLaw.lean ====
/-
  The scalar law that joins the two programs.

  The kernel forms the SIMP stiffness factor of a density logit w as  ε + ((σ·σ)·σ)·1  with σ = 1 / (1 + e^(-w)) the
  logistic of w, cubing by two multiplications.  The reference forms  ε + (σ ^ 3)·1  with the real power function at the
  exponent 3.  On a REAL logit w the logistic is a real number (the denominator 1 + e^(-w) is positive), and for every real
  a the real power a ^ (3 : ℝ) is the product a·a·a; so the two factors are one extended real.  Finiteness of w is what
  the law uses: at an infinite logit the power function's corner cases would have to be compared one by one, and the
  precondition makes that unnecessary.
-/
import Idealize.ShloMosaic.PureOps.Ideal
import Idealize.ShloMosaic.PureOps.Ideal.Laws
import Idealize.ShloMosaic.Lib.IdealHost
import Mathlib.Analysis.SpecialFunctions.Pow.Real

noncomputable section

namespace Cert.PowerLaw

open Idealize.ShloMosaic

/-- The f32 pattern `0x40400000` is the real number three. -/
theorem ofBits_three_f32 : Ideal.ofBits .f32 0x40400000#32 = ((3 : ℝ) : EReal) := by
  simp [Ideal.ofBits, Ideal.ieee, -EReal.coe_mul]; norm_num

/-- The logistic of a real logit is the real number 1 / (1 + e^(-w)). -/
theorem logistic_coe (w : ℝ) : Ideal.logistic (w : EReal) = ((1 / (1 + Real.exp (-w)) : ℝ) : EReal) := by
  have hpos : (1 + Real.exp (-w) : ℝ) ≠ 0 := by positivity
  unfold Ideal.logistic
  rw [← EReal.coe_neg, Ideal.exp_coe, ← EReal.coe_one, ← EReal.coe_add, Ideal.div_coe hpos, ← EReal.coe_mul, one_mul]

/-- The logistic, spelt out as the quotient the host computes, is the logistic. -/
theorem logistic_eq_div (x : EReal) : Ideal.div 1 (1 + Ideal.exp (-x)) = Ideal.logistic x := rfl

/-- The power function at the exponent three, on a real base, is the product of three copies of the base. -/
theorem pow_three (a : ℝ) : Ideal.pow (a : EReal) ((3 : ℝ) : EReal) = (((a * a) * a : ℝ) : EReal) := by
  show ((Real.rpow a 3 : ℝ) : EReal) = _
  congr 1
  have h3 : (3 : ℝ) = ((3 : ℕ) : ℝ) := by norm_num
  rw [show Real.rpow a 3 = a ^ (3 : ℝ) from rfl, h3, Real.rpow_natCast]
  ring

/-- On a real logit, cubing the logistic by two multiplications is raising it to the real power three. -/
theorem cube_eq_pow (w : ℝ) :
    (Ideal.logistic (w : EReal) * Ideal.logistic (w : EReal)) * Ideal.logistic (w : EReal)
      = Ideal.pow (Ideal.logistic (w : EReal)) ((3 : ℝ) : EReal) := by
  rw [logistic_coe, pow_three, EReal.coe_mul, EReal.coe_mul]

end Cert.PowerLaw

end
-- ==== Proof.FactorLaw.lean ====
/-
  The kernel's factors are the reference's, on real logits.

  The kernel views the logits as [2048, 128], applies ε + ((σ·σ)·σ)·1 entry by entry and the host views the result as one
  vector again; reshaping there and back is the identity, so entry k of that vector is the factor of logit k.  The
  reference computes ε + (ρ ^ 3)·1 with ρ = 1 / (1 + e^(−w)) the host's density.  The density IS the logistic, the literal
  0x3F800000 is 1 and 0x40400000 is 3, and on a real logit cubing by multiplication is the real power (PowerLaw).
-/
import proofs.«431163_j22419729285763_3_alg».proof.Proof.LossShape
import proofs.«431163_j22419729285763_3_alg».proof.Proof.FactorArray
import proofs.«431163_j22419729285763_3_alg».proof.Proof.PowerLaw
import proofs.«431163_j22419729285763_3_alg».proof.Proof.Gen.KernelIdeal
import Idealize.ShloMosaic.Lib.Pipeline.Value
import Idealize.ShloMosaic.Lib.IdealHost

noncomputable section

namespace Cert.KernelIdeal.FactorLaw

open Cert.KernelIdeal Cert.KernelIdeal.Loss Idealize.ShloMosaic
open Cert.KernelIdeal.Facts₀

/-- The reference's factor of every element: ε + (ρ ^ 3)·1 over the host's density ρ. -/
def powerFactors {F : FTy → Type} [FloatOps F] (W : FVec F S262144 .f32) : FVec F S262144 .f32 :=
  addf (broadcastInDim S262144 ![] bcast_S_S262144 (constant S_ .f32 0x3089705F#32))
    (mulf (Host.powf (density W) (broadcastInDim S262144 ![] bcast_S_S262144 (constant S_ .f32 0x40400000#32)))
      (broadcastInDim S262144 ![] bcast_S_S262144 (constant S_ .f32 0x3F800000#32)))

/-- On real logits the kernel's factors, viewed as one vector, are the reference's. -/
theorem factors_eq (a0 : FVec Ideal S262144 .f32) (h : ∀ i, ∃ r : ℝ, a0 i = (r : EReal)) :
    shapeCast S262144 (FactorArray.factors (F := Ideal) (shapeCast S2048x128 a0 shapeCasts_S262144_S2048x128)) shapeCasts_S2048x128_S262144
      = powerFactors a0 := by
  have e : shapeCast S262144 (FactorArray.factors (F := Ideal) (shapeCast S2048x128 a0 shapeCasts_S262144_S2048x128)) shapeCasts_S2048x128_S262144
      = fun k => FactorArray.factor (F := Ideal) (shapeCast S262144 (shapeCast S2048x128 a0 shapeCasts_S262144_S2048x128) shapeCasts_S2048x128_S262144 k) := rfl
  rw [e, shapeCast_shapeCast]
  funext k
  obtain ⟨r, hr⟩ := h k
  show (Ideal.ofBits .f32 0x3089705F#32 + ((Ideal.logistic (a0 k) * Ideal.logistic (a0 k)) * Ideal.logistic (a0 k)) * Ideal.ofBits .f32 0x3F800000#32 : EReal)
    = Ideal.ofBits .f32 0x3089705F#32
      + Ideal.pow (Ideal.div (Ideal.ofBits .f32 0x3F800000#32) (Ideal.ofBits .f32 0x3F800000#32 + Ideal.exp (-(a0 k)))) (Ideal.ofBits .f32 0x40400000#32)
        * Ideal.ofBits .f32 0x3F800000#32
  rw [Ideal.ofBits_one_f32, PowerLaw.ofBits_three_f32, hr, PowerLaw.logistic_eq_div, PowerLaw.cube_eq_pow]

end Cert.KernelIdeal.FactorLaw

end
-- ==== Proof.IndexLaws.lean ====
/-
  In-range indices pass through the kernel side's guards unchanged.

  Let every word of an index vector r be, read signed, at least 0 and below 524288.  Then
  * clamping into [0, 524287] returns r:  max(0, x) = x because x is not negative, min(524287, x) = x because x ≤ 524287;
  * counting negative indices from the end returns r: the test x < 0 fails at every entry;
  * the in-range mask of r is all ones: both comparisons 0 ≤ x and x ≤ 524287 hold at every entry, and a conjunction
    over an axis of extent one of ones is one;
  * so jnp.take at r — the gather where the mask is on, NaN elsewhere — is the plain gather at r.
-/
import proofs.«431163_j22419729285763_3_alg».proof.Proof.LossShape
import proofs.«431163_j22419729285763_3_alg».proof.Proof.Gen.KernelIdeal
import Idealize.ShloMosaic.Lib.ReduceAll

noncomputable section

namespace Cert.KernelIdeal.IndexLaws

open Cert.KernelIdeal Cert.KernelIdeal.Loss Idealize.ShloMosaic

variable {F : FTy → Type} [FloatOps F]

/-- A signed word in [0, 524288) is its own clamp into [0, 524287]. -/
theorem clamp_word (x : BitVec 32) (h0 : 0 ≤ x.toInt) (h1 : x.toInt < 524288) :
    IntOp.minsi 524287#32 (IntOp.maxsi 0#32 x) = x := by
  have z : (0#32 : BitVec 32).toInt = 0 := by decide
  have t : (524287#32 : BitVec 32).toInt = 524287 := by decide
  have hm : IntOp.maxsi 0#32 x = x := by
    unfold IntOp.maxsi
    rw [if_neg]
    rw [BitVec.slt_iff_toInt_lt]; omega
  rw [hm]
  unfold IntOp.minsi
  rw [if_neg]
  rw [BitVec.slt_iff_toInt_lt]; omega

/-- The test "x < 0" fails on a non-negative signed word. -/
theorem not_neg_word (x : BitVec 32) (h0 : 0 ≤ x.toInt) : ¬ IntOp.cmpi .slt x 0#32 = 1#1 := by
  have z : (0#32 : BitVec 32).toInt = 0 := by decide
  rw [IntOp.cmpi_slt]; omega

/-- A left fold by `and` from one over words that are all one is one. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 by decide]
    exact foldl_andi_ones x hx l

variable (r : IVec S16777216 32) (hr : ∀ i, 0 ≤ (r i).toInt ∧ (r i).toInt < 524288)
include hr

/-- Clamping in-range indices changes nothing. -/
theorem clipped_eq : clipped r = r := by
  funext i
  exact clamp_word (r i) (hr i).1 (hr i).2

/-- Counting negative indices from the end changes nothing when none is negative. -/
theorem wrapped_eq : wrapped r = r := by
  funext i
  show Scalar.select (IntOp.cmpi .slt (r i) 0#32) (IntOp.addi (r i) 524288#32) (r i) = r i
  exact if_neg (not_neg_word (r i) (hr i).1)

/-- The in-range mask of in-range indices is all ones. -/
theorem inRange_eq : inRange r = fun _ => 1#1 := by
  have t : (524287#32 : BitVec 32).toInt = 524287 := by decide
  have z : (0#32 : BitVec 32).toInt = 0 := by decide
  funext i
  unfold inRange
  rw [Host.reduce_eq_foldl]
  have key : ∀ q, IntOp.andi (IntOp.cmpi .sge (r q) 0#32) (IntOp.cmpi .sle (r q) 524287#32) = 1#1 := fun q =>
    IntOp.andi_eq_one.2 ⟨IntOp.cmpi_sge.2 (by have := (hr q).1; omega), IntOp.cmpi_sle.2 (by have := (hr q).2; omega)⟩
  refine foldl_andi_ones _ (fun j => ?_) _
  show IntOp.andi (IntOp.cmpi .sge (r _) 0#32) (IntOp.cmpi .sle (r _) 524287#32) = 1#1
  exact key _

/-- jnp.take at in-range indices is the plain gather. -/
theorem taken_eq (u : FVec F S524288 .f32) :
    taken u r = Host.gather gather_S524288_S16777216x1_S16777216_n_0_n_n_0_1_1 u
      (broadcastInDim S16777216x1 ![0] Facts₀.bcast_S16777216_S16777216x1_0 r) := by
  unfold taken
  rw [wrapped_eq r hr, inRange_eq r hr]
  funext i
  show Scalar.select 1#1 _ _ = _
  exact if_pos rfl

end Cert.KernelIdeal.IndexLaws

end
-- ==== Proof.Domain.lean ====
/-
  What the precondition says of the inputs.

  The precondition is a conjunction of six "for all entries" tests, and the claim assumes it is all ones.  Two of its
  conjuncts are used by the proof:
  * every density logit (an entry of the first argument) is strictly below +inf in absolute value, so it is a real number;
  * every assembly index (an entry of the third argument, both of its rows: the row indices and the column indices of the
    sparse matrix) is, read as a signed 32-bit word, at least 0 and below 524288, the number of degrees of freedom: it is
    a position inside the displacement vector it indexes and inside the assembled vector it is added into.
-/
import proofs.«431163_j22419729285763_3_alg».proof.Pre_finite_inputs
import Idealize.ShloMosaic.PureOps.Ideal
import Idealize.ShloMosaic.PureOps.Ideal.Laws
import Idealize.ShloMosaic.Lib.ReduceAll

noncomputable section

namespace Cert.Domain

open Idealize.ShloMosaic Cert.Pre_finite_inputs

variable [Cert.Pre_finite_inputs.Facts]
open Cert.Pre_finite_inputs.Facts

/-- A rank-zero array has one index. -/
instance : Subsingleton S_.Idx := ⟨fun a b => funext fun d => d.elim0⟩

/-- An extended real strictly below +inf in absolute value is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The precondition's conjuncts that the proof uses, entry by entry. -/
theorem of_pre (a0 : FVec Ideal S262144 .f32) (a1 : FVec Ideal S262144x64 .f32) (a2 : IVec S2x16777216 32)
    (a3 : FVec Ideal S524288 .f32) (a4 : FVec Ideal S524288 .f32)
    (h : fn (F := Ideal) a0 a1 a2 a3 a4 = fun _ => 1#1) :
    (∀ i, ∃ r : ℝ, a0 i = (r : EReal)) ∧ (∀ i, 0 ≤ (a2 i).toInt ∧ (a2 i).toInt < 524288) := by
  have h0 := congrFun h (fun d => d.elim0)
  dsimp only [fn, fn_part1] at h0
  obtain ⟨h5, hlt⟩ := IntOp.andi_eq_one.1 h0
  obtain ⟨h4, hge⟩ := IntOp.andi_eq_one.1 h5
  obtain ⟨h3, -⟩ := IntOp.andi_eq_one.1 h4
  obtain ⟨h2, -⟩ := IntOp.andi_eq_one.1 h3
  obtain ⟨hW, -⟩ := IntOp.andi_eq_one.1 h2
  refine ⟨fun i => ?_, fun i => ⟨?_, ?_⟩⟩
  · -- |a0 i| < +inf, the f32 pattern 0x7F800000 being +inf
    have e := Host.reduce_andi_all _ _ _ _ _ hW i
    have htop : Ideal.ofBits .f32 0x7F800000#32 = (⊤ : EReal) := by simp [Ideal.ofBits, Ideal.ieee]
    have e' : Ideal.cmp .olt (max (a0 i) (-(a0 i))) (Ideal.ofBits .f32 0x7F800000#32) = 1#1 := e
    rw [htop] at e'
    refine real_of_abs_lt_top _ ?_
    by_contra hn
    simp [Ideal.cmp, hn] at e'
  · -- 0 ≤ a2 i, signed
    have e := Host.reduce_andi_all _ _ _ _ _ hge i
    have e' : IntOp.cmpi .sge (a2 i) 0#32 = 1#1 := e
    simpa using IntOp.cmpi_sge.1 e'
  · -- a2 i < 524288, signed
    have e := Host.reduce_andi_all _ _ _ _ _ hlt i
    have e' : IntOp.cmpi .slt (a2 i) 524288#32 = 1#1 := e
    have := IntOp.cmpi_slt.1 e'
    have h524 : (524288#32 : BitVec 32).toInt = 524288 := by decide
    omega

end Cert.Domain

end
-- ==== Proof.RefValue.lean ====
/-
  The reference's result in the common shape, and the two results compared.

  The reference's run ends with its result at the loss of LossShape with
      scale = ε + (ρ ^ 3)·1 over the host's density,  ug = the displacements gathered at the columns (negative ones counted
      from the end),  ri = the rows as given:
  it is the same tree of host operations.  Under the precondition the kernel's three arrays are these: the factors by
  FactorLaw (real logits), the clamped rows and columns by IndexLaws (indices in range), the kernel side's jnp.take the
  plain gather, and no column is negative.  So the two programs' results are one extended real.
-/
import proofs.«431163_j22419729285763_3_alg».proof.Proof.Gen.ReferenceIdeal.Run
import proofs.«431163_j22419729285763_3_alg».proof.Proof.Gen.KernelIdeal
import proofs.«431163_j22419729285763_3_alg».proof.Proof.Gen.Pre_finite_inputs
import proofs.«431163_j22419729285763_3_alg».proof.Proof.LossShape
import proofs.«431163_j22419729285763_3_alg».proof.Proof.FactorLaw
import proofs.«431163_j22419729285763_3_alg».proof.Proof.IndexLaws
import proofs.«431163_j22419729285763_3_alg».proof.Proof.Domain

set_option maxRecDepth 16384

noncomputable section

namespace Cert.RefValue

open Idealize.ShloMosaic Idealize.ShloMosaic.TcCoe Idealize.SL.Sem
open Cert.KernelIdeal.Loss

/-- The loss at the reference's three arrays, as a function of the five argument arrays. -/
def referenceLoss {F : FTy → Type} [FloatOps F] (a0 : FVec F Cert.KernelIdeal.S262144 .f32) (a1 : FVec F Cert.KernelIdeal.S262144x64 .f32)
    (a2 : IVec Cert.KernelIdeal.S2x16777216 32) (a3 a4 : FVec F Cert.KernelIdeal.S524288 .f32) : FVec F Cert.KernelIdeal.S_ .f32 :=
  loss a0 a1 a4 (Cert.KernelIdeal.FactorLaw.powerFactors a0)
    (Host.gather Cert.KernelIdeal.gather_S524288_S16777216x1_S16777216_n_0_n_n_0_1_1 a3
      (broadcastInDim Cert.KernelIdeal.S16777216x1 ![0] Cert.KernelIdeal.Facts₀.bcast_S16777216_S16777216x1_0 (wrapped (colsOf a2))))
    (rowsOf a2)

set_option maxHeartbeats 1000000 in
/-- The reference run's term is that loss of its launch contents. -/
theorem res_eq {F : FTy → Type} [FloatOps F]
    (m : (ℓ : Loc Cert.ReferenceIdeal.nD Cert.ReferenceIdeal.τ Cert.ReferenceIdeal.sig) → Buf (Elt F) ℓ) (c : Dev Cert.ReferenceIdeal.nD) :
    Cert.ReferenceIdeal.Value.res_main_v38 (F := F) m c
      = referenceLoss (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) := by
  unfold Cert.ReferenceIdeal.Value.res_main_v38 referenceLoss loss volumePenalty density residualNorm assembled weighted wrapped
    colsOf rowsOf Cert.KernelIdeal.FactorLaw.powerFactors
  rfl

/-- UNDER THE PRECONDITION the kernel's three arrays are the reference's, so the two losses are one extended real. -/
theorem values_agree (a0 : FVec Ideal Cert.KernelIdeal.S262144 .f32) (a1 : FVec Ideal Cert.KernelIdeal.S262144x64 .f32)
    (a2 : IVec Cert.KernelIdeal.S2x16777216 32) (a3 a4 : FVec Ideal Cert.KernelIdeal.S524288 .f32)
    (hpre : Cert.Pre_finite_inputs.fn (F := Ideal) a0 a1 a2 a3 a4 = fun _ => 1#1) :
    loss a0 a1 a4
        (shapeCast Cert.KernelIdeal.S262144 (Cert.KernelIdeal.FactorArray.factors (F := Ideal)
          (shapeCast Cert.KernelIdeal.S2048x128 a0 Cert.KernelIdeal.Facts₀.shapeCasts_S262144_S2048x128)) Cert.KernelIdeal.Facts₀.shapeCasts_S2048x128_S262144)
        (taken a3 (clipped (colsOf a2))) (clipped (rowsOf a2))
      = referenceLoss a0 a1 a2 a3 a4 := by
  obtain ⟨hW, hidx⟩ := Cert.Domain.of_pre a0 a1 a2 a3 a4 hpre
  have hrows : ∀ i, 0 ≤ (rowsOf a2 i).toInt ∧ (rowsOf a2 i).toInt < 524288 := fun i => hidx _
  have hcols : ∀ i, 0 ≤ (colsOf a2 i).toInt ∧ (colsOf a2 i).toInt < 524288 := fun i => hidx _
  unfold referenceLoss
  rw [Cert.KernelIdeal.FactorLaw.factors_eq a0 hW, Cert.KernelIdeal.IndexLaws.clipped_eq _ hrows,
    Cert.KernelIdeal.IndexLaws.clipped_eq _ hcols, Cert.KernelIdeal.IndexLaws.taken_eq _ hcols,
    Cert.KernelIdeal.IndexLaws.wrapped_eq _ hcols]

end Cert.RefValue

end
-- ==== Proof.lean ====
/-
  The SIMP compliance loss: the kernel against its reference, over the extended reals.

  Both programs take density logits w (one per finite element), element stiffness entries Kₑ (64 per element), the row and
  column index of every stored entry, a displacement vector u and a load vector f, and return
      loss = max(mean σ(w) − 0.4, 0) + ‖K u − f‖,     K u = Σₖ (Kₑ·scale)[k] · u[cols k]  added into slot rows k,
  with scale = ε + σ(w)³ (ε the f32 nearest 1e-9).  They differ in three places.  The kernel computes scale in a Pallas call over
  the [2048, 128] view of the logits, cubing by two multiplications, where the reference raises to the real power 3; on real
  logits these agree (PowerLaw, FactorLaw; FactorArray reads the call's result array off the generated frame).  The kernel
  clamps the row and column indices into [0, 524287] and gathers with jnp.take (negative indices wrapped, an in-range mask,
  NaN outside), where the reference indexes directly; on indices inside [0, 524288) the clamp, the wrap and the mask do
  nothing (IndexLaws).  Everything else is the same host arithmetic (LossShape; KernelTail, KernelEntry and KernelValue read
  the kernel's host lines back, RefValue the reference's).

  The precondition is that every float input is finite AND every index is a position of the vectors it indexes,
  0 ≤ index < 524288 (Domain).  The second conjunct is needed: outside it the reference's gather clamps or wraps and its
  assembly drops the entry, while the kernel's clamp moves the entry to slot 0 or 524287, and the losses differ.

  The three frames are the generated ones (the reference's is its generated run with the result dropped); the kernel's
  idealization rewrote nothing, so there is nothing to preserve.
-/
import proofs.«431163_j22419729285763_3_alg».proof.Defs
import proofs.«431163_j22419729285763_3_alg».proof.Proof.Gen.Kernel
import proofs.«431163_j22419729285763_3_alg».proof.Proof.Gen.Kernel.Skeleton
import proofs.«431163_j22419729285763_3_alg».proof.Proof.Gen.Kernel.Launch
import proofs.«431163_j22419729285763_3_alg».proof.Proof.Gen.Kernel.Points
import proofs.«431163_j22419729285763_3_alg».proof.Proof.Gen.Kernel.Frame
import proofs.«431163_j22419729285763_3_alg».proof.Proof.Gen.KernelIdeal
import proofs.«431163_j22419729285763_3_alg».proof.Proof.Gen.KernelIdeal.Skeleton
import proofs.«431163_j22419729285763_3_alg».proof.Proof.Gen.KernelIdeal.Launch
import proofs.«431163_j22419729285763_3_alg».proof.Proof.Gen.KernelIdeal.Points
import proofs.«431163_j22419729285763_3_alg».proof.Proof.Gen.KernelIdeal.Frame
import proofs.«431163_j22419729285763_3_alg».proof.Proof.Gen.ReferenceIdeal
import proofs.«431163_j22419729285763_3_alg».proof.Proof.Gen.ReferenceIdeal.Run
import proofs.«431163_j22419729285763_3_alg».proof.Proof.Gen.Pre_finite_inputs
import proofs.«431163_j22419729285763_3_alg».proof.Proof.KernelValue
import proofs.«431163_j22419729285763_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments: the generated frame. -/
theorem frame_kernel : Cert.frame_Kernel := fun m ρ _ => Cert.Kernel.Gen.frame m ρ

/-- The same of its idealization. -/
theorem frame_kernelIdeal : Cert.frame_KernelIdeal := fun m ρ _ => Cert.KernelIdeal.Gen.frame m ρ

/-- The reference is host operations only: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, under the precondition, both programs end with the same loss: the kernel's
    run leaves its loss (KernelValue), the reference's run leaves the common loss at its own three arrays (RefValue), and
    the precondition makes the two equal. -/
theorem algebraic : Cert.algebraic_KernelIdeal_ReferenceIdeal := by
  intro m ρ m' ρ' hpre hagree
  refine ⟨fun c => Cert.KernelIdeal.KernelValue.kernelLoss (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.RefValue.res_eq, (hagree c).1, (hagree c).2.1, (hagree c).2.2.1, (hagree c).2.2.2.1, (hagree c).2.2.2.2]
  exact (Cert.RefValue.values_agree _ _ _ _ _ (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
